-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel

variable [Facts]

def fn_part1 {F : FTy → Type} [FloatOps F] (main_v13 : IVec S_ 1) (main_v16 : IVec S8x512x2048 1) : IVec S_ 1 :=
  let main_c_5 : IVec S_ 1 := constantI S_ 1 1#1
  let main_v17 : IVec S_ 1 := (fun x v => Host.reduce IntOp.andi x v reducesTo_S8x512x2048_S_d0_1_2 h_S_) main_v16 main_c_5
  let main_v18 : IVec S_ 1 := andi main_v13 main_v17
  main_v18

def fn {F : FTy → Type} [FloatOps F] (main_arg0 : FVec F S8x512x2048 .f32) (main_arg1 : FVec F S8x512x2048 .f32) (main_arg2 : FVec F S8x512x2048 .f32) (main_arg3 : FVec F S8x512x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x512x2048 .f32 := Host.absf main_arg2
  let main_cst_2 : FVec F S_ .f32 := constant S_ .f32 0x7F800000#32
  let main_v10 : FVec F S8x512x2048 .f32 := broadcastInDim S8x512x2048 ![] bcast_S_S8x512x2048 main_cst_2
  let main_v11 : IVec S8x512x2048 1 := cmpf .olt main_v9 main_v10
  let main_c_3 : IVec S_ 1 := constantI S_ 1 1#1
  let main_v12 : IVec S_ 1 := (fun x v => Host.reduce IntOp.andi x v reducesTo_S8x512x2048_S_d0_1_2 h_S_) main_v11 main_c_3
  let main_v13 : IVec S_ 1 := andi main_v8 main_v12
  let main_v14 : FVec F S8x512x2048 .f32 := Host.absf main_arg3
  let main_cst_4 : FVec F S_ .f32 := constant S_ .f32 0x7F800000#32
  let main_v15 : FVec F S8x512x2048 .f32 := broadcastInDim S8x512x2048 ![] bcast_S_S8x512x2048 main_cst_4
  let main_v16 : IVec S8x512x2048 1 := cmpf .olt main_v14 main_v15
  fn_part1 (F := F) main_v13 main_v16
-- ==== Kernel.lean ====
abbrev S8x512x2048 : Shape := ⟨3, ![8, 512, 2048]⟩
abbrev S8x2048x2048 : Shape := ⟨3, ![8, 2048, 2048]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x2048, .f32⟩
  | .hbm, ⟨3, _⟩ => ⟨S8x512x2048, .f32⟩
  | .hbm, ⟨4, _⟩ => ⟨S8x2048x2048, .f32⟩
  | .hbm, ⟨5, _⟩ => ⟨S8x2048x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  reduces_S512x512_S512 : S512x512.Reduces [0] S512
  shapeCasts_S512_S1x512 : S512.ShapeCasts S1x512
  transposes_S1x512_p1_0_S512x1 : S1x512.Transposes [1, 0] S512x1
  broadcasts_S512x1_S512x512 : S512x1.Broadcasts S512x512
  broadcasts_S1x512_S512x512 : S1x512.Broadcasts S512x512
  shapeCasts_S512x512_S1x512x512 : S512x512.ShapeCasts S1x512x512
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x2048.size a
  hwx0_0 : ∀ i : grid0.Coords, EltTy.bits .f32 = 32 ∨ (Rect.block (s := S8x512x2048) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x2048.size a
  hwx0_1 : ∀ i : grid0.Coords, EltTy.bits .f32 = 32 ∨ (Rect.block (s := S8x512x2048) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x512x2048.size a
  hwx0_2 : ∀ i : grid0.Coords, EltTy.bits .f32 = 32 ∨ (Rect.block (s := S8x512x2048) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x2048.size a
  hwx0_3 : ∀ i : grid0.Coords, EltTy.bits .f32 = 32 ∨ (Rect.block (s := S8x512x2048) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x2048x2048.size a
  hwx0_4 : ∀ i : grid0.Coords, EltTy.bits .f32 = 32 ∨ (Rect.block (s := S8x2048x2048) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S8x2048x2048.size a
  hwx0_5 : ∀ i : grid0.Coords, EltTy.bits .f32 = 32 ∨ (Rect.block (s := S8x2048x2048) S1x512x512.size (cc0_transform_5 i) (hinb0_5 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x2048, .f32⟩
  | .hbm, ⟨3, _⟩ => ⟨S8x512x2048, .f32⟩
  | .hbm, ⟨4, _⟩ => ⟨S8x512x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x512x2048, .f32⟩
  | .hbm, ⟨9, _⟩ => ⟨S_, .f32⟩
  | .hbm, ⟨10, _⟩ => ⟨S8x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .i1⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x512x2048_S8x2048_d1 : S8x512x2048.ReducesTo [1] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x512x2048_S8x512x2048_S8x2048x2048_1_1_2_2_0_0_wf : DotDims.WF S8x512x2048 S8x512x2048 S8x2048x2048 [1] [1] [2] [2] [0] [0]

variable [Facts₀]

def dot_S8x512x2048_S8x512x2048_S8x2048x2048_1_1_2_2_0_0 : DotDims S8x512x2048 S8x512x2048 S8x2048x2048 where
  lhsContracting := [1]
  rhsContracting := [1]
  lhsNonContracting := [2]
  rhsNonContracting := [2]
  lhsBatch := [0]
  rhsBatch := [0]
  wf := dot_S8x512x2048_S8x512x2048_S8x2048x2048_1_1_2_2_0_0_wf

class Facts : Prop extends Facts₀ where

variable [Facts]
-- ==== Proof.Spec.lean ====
/-
  The two results as functions of the argument arrays, index by index, on the extended reals.

  For arrays `X`, `Y` of shape [8, 512, 2048] (batch, feature, point) write ⟨A, B⟩(b, n, m) for the sum over the 512
  features `d` of `A[b, d, n] · B[b, d, m]`. The squared distance between point `n` of `X` and point `m` of `Y` in
  batch `b` is ‖x‖² + ‖y‖² − 2·⟨x, y⟩ = ⟨X, X⟩(b, n, n) + ⟨Y, Y⟩(b, m, m) − 2·⟨X, Y⟩(b, n, m); the Gaussian affinity is
  `exp(−dist / 1) · 1`, and the bilinear map of `Ux`, `Uy` is ⟨Ux, Uy⟩(b, n, m) · 1. The words `1.0`, `2.0` and `+∞` are kept as
  the f32 patterns both programs print; none of them is ever evaluated, except that the pattern of `0.0` is the real 0.

  Two facts about single extended reals close the gap between the two programs' spellings: an extended real never
  differs from itself, so the mask that replaces a NaN distance by `+∞` is the identity (there is no NaN among the
  extended reals); and `0 − d` is `−d`.
-/
import Idealize.ShloMosaic.PureOps.Ideal
import Idealize.ShloMosaic.PureOps.Ideal.Laws
import Idealize.ShloMosaic.Lib.ValueIdx

noncomputable section

open scoped BigOperators

namespace Cert.Affinity

open Idealize.ShloMosaic Idealize.ShloMosaic.ValueIdx

/-- The shape of each argument array: batch × feature × point. -/
abbrev SArg : Shape := ⟨3, ![8, 512, 2048]⟩
/-- The shape of each result array: batch × point of the first operand × point of the second. -/
abbrev SRes : Shape := ⟨3, ![8, 2048, 2048]⟩

/-- The f32 pattern of `1.0` at the ideal values. -/
abbrev one : EReal := Ideal.ofBits .f32 0x3F800000#32
/-- The f32 pattern of `2.0` at the ideal values. -/
abbrev two : EReal := Ideal.ofBits .f32 0x40000000#32
/-- The f32 pattern of `+∞` at the ideal values. -/
abbrev infty : EReal := Ideal.ofBits .f32 0x7F800000#32

/-- ⟨A, B⟩(b, n, m): the sum over the features of `A[b, d, n] · B[b, d, m]`. -/
def inner (A B : SArg.Idx → EReal) (b : Fin 8) (n m : Fin 2048) : EReal :=
  ∑ d : Fin 512, A (ix3 b d n) * B (ix3 b d m)

/-- The squared distance ‖x‖² + ‖y‖² − 2·⟨x, y⟩ between point `n` of `X` and point `m` of `Y` in batch `b`. -/
def sqdist (X Y : SArg.Idx → EReal) (b : Fin 8) (n m : Fin 2048) : EReal :=
  inner X X b n n + inner Y Y b m m - two * inner X Y b n m

/-- The Gaussian of a squared distance, with the unit bandwidth and the unit amplitude as the programs spell them. -/
def gauss (d : EReal) : EReal := Ideal.exp (Ideal.div (-d) one) * one

/-- The first result: the Gaussian affinity of every pair of points. -/
def affinity (X Y : SArg.Idx → EReal) : SRes.Idx → EReal := fun i => gauss (sqdist X Y (i 0) (i 1) (i 2))

/-- The second result: the bilinear map ⟨Ux, Uy⟩ of every pair of points, times the unit amplitude. -/
def bilinear (Ux Uy : SArg.Idx → EReal) : SRes.Idx → EReal := fun i => inner Ux Uy (i 0) (i 1) (i 2) * one

/-- An extended real is never unequal to itself: the ordered comparison "not equal" of a value with itself is false. -/
theorem cmp_one_self (d : EReal) : Ideal.cmp .one d d = 0#1 := by
  unfold Ideal.cmp
  simp

/-- The unordered comparison "not equal" of a value with itself is false as well. -/
theorem cmp_une_self (d : EReal) : Ideal.cmp .une d d = 0#1 := by
  unfold Ideal.cmp
  simp

/-- So the NaN mask (replace by `+∞` where the value differs from itself) leaves every extended real as it is. -/
theorem mask_one (d : EReal) : Scalar.select (Ideal.cmp .one d d) infty d = d := by
  rw [cmp_one_self]; exact select_zero _ _

theorem mask_une (d : EReal) : Scalar.select (Ideal.cmp .une d d) infty d = d := by
  rw [cmp_une_self]; exact select_zero _ _

/-- Negation spelt as subtraction from the zero pattern: `0 − d = −d` on every extended real. -/
theorem gauss_of_zero_sub (d : EReal) :
    Ideal.exp (Ideal.div (Ideal.ofBits .f32 0x00000000#32 - d) one) * one = gauss d := by
  rw [Ideal.ofBits_zero_f32, zero_sub]
  rfl

end Cert.Affinity

end
-- ==== Proof.RefValue.lean ====
/-
  The reference's two results are the specification's functions.

  Read one operation at a time, the host program computes at (b, n, m): the two squared norms as `0 + Σ_d X[b,d,n]²` and
  `0 + Σ_d Y[b,d,m]²` (a sum over the feature axis, then broadcast along the other operand's points), the cross term as a
  batched contraction over the features, the distance `‖x‖² + ‖y‖² − 2·⟨x, y⟩`, the NaN mask, a negation, a quotient by one, the
  exponential and a product with one. The zero the sums start from is the real 0, the mask is the identity on the
  extended reals, and what is left is the specification's Gaussian of the squared distance, term for term. The second
  result is the contraction of `Ux` and `Uy` times one.
-/
import proofs.«102930_j59253368816316_1_alg».proof.Proof.Gen.ReferenceIdeal.Read
import proofs.«102930_j59253368816316_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Affinity

/-- Where the first squared norm reads its operand: batch and point of the first operand, feature `k`. -/
theorem idx_normX (i : S8x2048x2048.Idx) (k : Fin 512) :
    idx_main_v1 (idx_main_v2 (idx_main_v7 i)) k = ix3 (i 0) k (i 1) :=
  funext fun a => by match a with | ⟨0, _⟩ => rfl | ⟨1, _⟩ => rfl | ⟨2, _⟩ => rfl

/-- Where the second squared norm reads its operand: batch and point of the second operand, feature `k`. -/
theorem idx_normY (i : S8x2048x2048.Idx) (k : Fin 512) :
    idx_main_v4 (idx_main_v5 (idx_main_v8 i)) k = ix3 (i 0) k (i 2) :=
  funext fun a => by match a with | ⟨0, _⟩ => rfl | ⟨1, _⟩ => rfl | ⟨2, _⟩ => rfl

/-- Where the cross term reads its left operand. -/
theorem idx_crossL (i : S8x2048x2048.Idx) (k : Fin 512) : lidx_main_v6 i k = ix3 (i 0) k (i 1) :=
  funext fun a => by match a with | ⟨0, _⟩ => rfl | ⟨1, _⟩ => rfl | ⟨2, _⟩ => rfl

/-- Where the cross term reads its right operand. -/
theorem idx_crossR (i : S8x2048x2048.Idx) (k : Fin 512) : ridx_main_v6 i k = ix3 (i 0) k (i 2) :=
  funext fun a => by match a with | ⟨0, _⟩ => rfl | ⟨1, _⟩ => rfl | ⟨2, _⟩ => rfl

/-- Where the bilinear map reads its left operand. -/
theorem idx_bilL (i : S8x2048x2048.Idx) (k : Fin 512) : lidx_main_v21 i k = ix3 (i 0) k (i 1) :=
  funext fun a => by match a with | ⟨0, _⟩ => rfl | ⟨1, _⟩ => rfl | ⟨2, _⟩ => rfl

/-- Where the bilinear map reads its right operand. -/
theorem idx_bilR (i : S8x2048x2048.Idx) (k : Fin 512) : ridx_main_v21 i k = ix3 (i 0) k (i 2) :=
  funext fun a => by match a with | ⟨0, _⟩ => rfl | ⟨1, _⟩ => rfl | ⟨2, _⟩ => rfl

/-- The squared distance the host program computes at an index is the specification's. -/
theorem dist_apply (X Y : (⟨S8x512x2048, .f32⟩ : BufTy).Contents (Elt Ideal)) (i : S8x2048x2048.Idx) :
    val_main_v12 (F := Ideal) X Y i = sqdist X Y (i 0) (i 1) (i 2) := by
  rw [val_main_v12_apply, val_main_v9_apply, val_main_v7_apply, val_main_v2_apply, val_main_v1_apply,
    val_main_v8_apply, val_main_v5_apply, val_main_v4_apply, val_main_v11_apply, val_main_v10_apply, val_main_v6_apply]
  simp only [val_main_v0_apply, val_main_v3_apply, val_main_cst_apply, val_main_cst_0_apply, val_main_cst_1_apply,
    idx_normX, idx_normY, idx_crossL, idx_crossR,
    Ideal.subf_def, Ideal.addf_def, Ideal.mulf_def, Ideal.ofBits_def, Ideal.ofBits_zero_f32, zero_add]
  rfl

/-- The first result of the host program is the Gaussian affinity. -/
theorem affinity_eq (X Y : (⟨S8x512x2048, .f32⟩ : BufTy).Contents (Elt Ideal)) :
    val_main_v20 (F := Ideal) X Y = affinity X Y := by
  funext i
  rw [val_main_v20_apply, val_main_v18_apply, val_main_v17_apply, val_main_v15_apply, val_main_v14_apply,
    val_main_v13_apply, val_main_call0_v1_apply, val_main_call0_v0_apply, val_main_cst_2_apply,
    val_main_v19_apply, val_main_cst_4_apply, val_main_v16_apply, val_main_cst_3_apply, dist_apply]
  simp only [Ideal.mulf_def, Ideal.hostUnary_exp_def, Ideal.hostDivf_def, Ideal.hostNegf_def, Ideal.negf_def,
    Ideal.cmpf_def, Ideal.ofBits_def, mask_une]
  rfl

/-- The second result of the host program is the bilinear map. -/
theorem bilinear_eq (Ux Uy : (⟨S8x512x2048, .f32⟩ : BufTy).Contents (Elt Ideal)) :
    val_main_v23 (F := Ideal) Ux Uy = bilinear Ux Uy := by
  funext i
  rw [val_main_v23_apply, val_main_v21_apply, val_main_v22_apply, val_main_cst_5_apply]
  simp only [idx_bilL, idx_bilR, Ideal.mulf_def, Ideal.ofBits_def]
  rfl

end Cert.ReferenceIdeal.RefValue

end
-- ==== Proof.Payload.lean ====
/-
  What the kernel body computes from one grid point's blocks, read at an index, at the ideal values.

  At a grid point the body holds a [1, 512, 512] block of each operand: 512 features by 512 points. Over blocks `A`, `B`
  write ⟨A, B⟩(p, q) for the sum over the features `k` of `A[0, k, p] · B[0, k, q]`. The two matrix products contract the
  feature axis of both operands (the change to the narrower float format before them is the identity here), so at (p, q) they
  are ⟨A, B⟩(p, q); the lane sums of the squares over the feature axis are ⟨A, A⟩(p, p) and ⟨B, B⟩(q, q), the first turned
  into a column (a cast to one row, a transpose) and broadcast along the rows, the second broadcast along the columns.
  So the distance at (p, q) is ⟨A, A⟩(p, p) + ⟨B, B⟩(q, q) − 2·⟨A, B⟩(p, q): `blockDist`. The NaN mask is the identity on
  the extended reals, and the exponent is `0 − dist` over one.
-/
import proofs.«102930_j59253368816316_1_alg».proof.Proof.Gen.KernelIdeal.Skeleton
import proofs.«102930_j59253368816316_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Affinity

/-! ## Two readings at an index: a column broadcast along the rows, and the exponential -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector read at an index. -/
theorem exp_apply {s : Shape} {φ : FTy} (a : FVec Ideal s φ) (i : s.Idx) : exp a i = Ideal.exp (a i) := rfl

/-! ## The contraction over the features -/

theorem lhs_dot_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs_dot_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs_dot_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs_dot_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The matrix product that contracts the FIRST axis of both operands, into a zero accumulator, at `(p, q)`: the sum over
    `k` of `l[k, p] · r[k, q]`. -/
theorem matmul_apply_pq (l r : FVec Ideal S512x512 .bf16) (p q : Fin 512) :
    matmul dot_S512x512_S512x512_S512x512_0_0_1_1_n_n none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 p q) ((contrEquiv1 dot_S512x512_S512x512_S512x512_0_0_1_1_n_n 512 rfl rfl).symm k) = ix2 k p := funext fun a => Fin.ext (by
    match a with
    | ⟨0, _⟩ => exact (lhs_dot_0 _ _).trans hk
    | ⟨1, _⟩ => exact lhs_dot_1 _ _)
  have er : dot_S512x512_S512x512_S512x512_0_0_1_1_n_n.rhsIdx (ix2 p q) ((contrEquiv1 dot_S512x512_S512x512_S512x512_0_0_1_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- ⟨A, B⟩(p, q) over one grid point's blocks. -/
def blockInner (A B : S1x512x512.Idx → EReal) (p q : Fin 512) : EReal :=
  ∑ k : Fin 512, A (ix3 (0 : Fin 1) k p) * B (ix3 (0 : Fin 1) k q)

/-- The squared distance over one grid point's blocks. -/
def blockDist (A B : S1x512x512.Idx → EReal) (p q : Fin 512) : EReal :=
  blockInner A A p p + blockInner B B q q - two * blockInner A B p q

/-- The product of two blocks (each cast to a matrix and to the narrower format) at `(p, q)`. -/
theorem gram_apply (A B : Vec Ideal S1x512x512 .f32) (p q : Fin 512) :
    matmul dot_S512x512_S512x512_S512x512_0_0_1_1_n_n none
        (truncf .bf16 (shapeCast S512x512 A shapeCasts_S1x512x512_S512x512) bitsLt_bf16_f32)
        (truncf .bf16 (shapeCast S512x512 B shapeCasts_S1x512x512_S512x512) bitsLt_bf16_f32)
        (constant (F := Ideal) S512x512 .f32 0x00000000#32) (ix2 p q)
      = blockInner A B p q := by
  refine (matmul_apply_pq _ _ p q).trans ?_
  refine Finset.sum_congr rfl fun k _ => ?_
  rw [truncf_apply, truncf_apply, shapeCast_1ab_ab_apply, shapeCast_1ab_ab_apply]

/-- The lane sum of a block's squares over the feature axis, at point `r`. -/
theorem sqnorm_apply (A : Vec Ideal S1x512x512 .f32) (r : Fin 512) :
    multiReduction (F := Ideal) .add [0] S512
        (mulf (shapeCast S512x512 A shapeCasts_S1x512x512_S512x512) (shapeCast S512x512 A shapeCasts_S1x512x512_S512x512))
        0x00000000#32 reduces_S512x512_S512 (.inl rfl) rfl (ix1 r)
      = blockInner A A r r := by
  refine (Ideal.multiReduction_add_single _ 0x00000000#32 reduces_S512x512_S512 (.inl rfl) rfl (ix1 r)).trans ?_
  refine Finset.sum_congr rfl fun (k : Fin 512) _ => ?_
  have e : reduces_S512x512_S512.lift (ix1 r) k = ix2 k r :=
    funext fun a => Fin.ext (by match a with | ⟨0, _⟩ => rfl | ⟨1, _⟩ => rfl)
  rw [e]
  show shapeCast S512x512 A shapeCasts_S1x512x512_S512x512 (ix2 k r) * shapeCast S512x512 A shapeCasts_S1x512x512_S512x512 (ix2 k r) = _
  rw [shapeCast_1ab_ab_apply]

/-- A vector of per-point values made a column and broadcast along the rows reads, at `(p, q)`, the value of point `p`. -/
theorem alongRows_apply (w : FVec Ideal S512 .f32) (p q : Fin 512) :
    broadcastTo S512x512 (transpose S512x1 [1, 0] (shapeCast S1x512 w shapeCasts_S512_S1x512) transposes_S1x512_p1_0_S512x1)
        broadcasts_S512x1_S512x512 (ix2 p q)
      = w (ix1 p) := by
  rw [broadcastTo_a1_ab_apply, transpose_ix2_apply, shapeCast_a_1a_apply]

/-- A vector of per-point values made a row and broadcast along the columns reads, at `(p, q)`, the value of point `q`. -/
theorem alongCols_apply (w : FVec Ideal S512 .f32) (p q : Fin 512) :
    broadcastTo S512x512 (shapeCast S1x512 w shapeCasts_S512_S1x512) broadcasts_S1x512_S512x512 (ix2 p q)
      = w (ix1 q) := by
  rw [broadcastTo_1b_ab_apply, shapeCast_a_1a_apply]

/-! ## The two payloads at an index -/

/-- The bilinear payload at `(p, q)`: ⟨A, B⟩(p, q). -/
theorem bilinear_pay_apply (A B : Vec Ideal S1x512x512 .f32) (p q : Fin 512) :
    k0_pay3 (F := Ideal) A B (ix2 p q) = blockInner A B p q := by
  unfold k0_pay3
  exact gram_apply A B p q

/-- The Gaussian payload at `(p, q)`: the exponential of `(0 − dist) / 1`, the mask gone. -/
theorem gauss_pay_apply (A B : Vec Ideal S1x512x512 .f32) (p q : Fin 512) :
    k0_pay4 (F := Ideal) A B (ix2 p q)
      = Ideal.exp (Ideal.div (Ideal.ofBits .f32 0x00000000#32 - blockDist A B p q) one) := by
  unfold k0_pay4
  dsimp only
  simp only [exp_apply, divf_apply, subf_apply, select_apply, cmpf_apply, broadcast_apply, addf_apply, mulf_apply]
  rw [alongRows_apply, alongCols_apply, sqnorm_apply, sqnorm_apply, gram_apply]
  simp only [Ideal.cmpf_def, Ideal.ofBits_def]
  rw [mask_one]
  rfl

end Cert.KernelIdeal.Body

end
-- ==== Proof.Blocks.lean ====
/-
  From what each grid point writes back to the two result arrays after the run.

  The grid is (batch, row tile, column tile) = 8 × 4 × 4. At point (b, i, j) the body holds features × points
  `X[b, :, 512i .. 512i+511]` and `Y[b, :, 512j .. 512j+511]` (and the same tiles of `Ux`, `Uy`), and writes tile
  `(b, i, j)` of each result. An index `(0, k, p)` of the first operand's block is index `(b, k, 512i + p)` of its array, an
  index `(0, k, q)` of the second's is `(b, k, 512j + q)`, and index `(0, p, q)` of a result's block is `(b, 512i + p, 512j + q)`
  of the result: so the block-local sums over the features are the whole-array sums at those points, and what the point
  writes back is the tile of the Gaussian affinity, and of the bilinear map, of the whole argument arrays. The 128 tiles
  cover the result arrays (the tile of index `(b, n, m)` is `(b, n / 512, m / 512)`), so each result array ends holding its
  function of the arguments everywhere.
-/
import proofs.«102930_j59253368816316_1_alg».proof.Proof.Gen.KernelIdeal.Value
import proofs.«102930_j59253368816316_1_alg».proof.Proof.Payload
import proofs.«102930_j59253368816316_1_alg».proof.Proof.Spec

noncomputable section

open scoped BigOperators

namespace Cert.KernelIdeal.Blocks

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)
open Cert.Affinity

variable (m : (ℓ : Loc nD τ sig) → Buf (Elt Ideal) ℓ) (ρ : Dev nD → PrngReg)

theorem hz : (![0, 0, 0] : Fin 3 → Nat) = fun _ => 0 := funext fun a => by fin_cases a <;> rfl

/-! ## One block of each result, over the loaded blocks -/

/-- The Gaussian block at `(u, p, q)`: the Gaussian of the block-local squared distance. -/
theorem gaussBlock_apply (A B : Vec Ideal S1x512x512 .f32) (u : Fin 1) (p q : Fin 512) :
    E4 (F := Ideal) A B (ix3 u p q) = gauss (blockDist A B p q) := by
  have e0 : ix4_0 (ix3 u p q) = ix2 p q := funext fun a => by match a with | ⟨0, _⟩ => rfl | ⟨1, _⟩ => rfl
  show FloatOps.mulf (k0_pay4 (F := Ideal) A B (ix4_0 (ix3 u p q))) (k0_pay5 (F := Ideal) (ix4_1 (ix3 u p q))) = _
  rw [e0, gauss_pay_apply]
  exact gauss_of_zero_sub _

/-- The bilinear block at `(u, p, q)`: the block-local sum over the features, times one. -/
theorem bilinearBlock_apply (A B : Vec Ideal S1x512x512 .f32) (u : Fin 1) (p q : Fin 512) :
    E5 (F := Ideal) A B (ix3 u p q) = blockInner A B p q * one := by
  have e0 : ix5_0 (ix3 u p q) = ix2 p q := funext fun a => by match a with | ⟨0, _⟩ => rfl | ⟨1, _⟩ => rfl
  show FloatOps.mulf (k0_pay3 (F := Ideal) A B (ix5_0 (ix3 u p q))) (Scalar.ofBits .f32 0x3F800000#32) = _
  rw [e0, bilinear_pay_apply]
  rfl

/-! ## Block-local sums are whole-array sums -/

/-- If block `x0` is array `X` read through `eX` and block `x1` is `Y` through `eY`, where `eX` sends `(·, k, p)` to
    `(b, k, n₁)` and `eY` sends `(·, k, q)` to `(b, k, n₂)`, then the block-local sum over the features at `(p, q)` is the
    arrays' at `(b, n₁, n₂)`. -/
theorem blockInner_eq (x0 x1 : Vec Ideal S1x512x512 .f32) (X Y : SArg.Idx → EReal) (eX eY : S1x512x512.Idx → SArg.Idx)
    (hx0 : ∀ z, x0 z = X (eX z)) (hx1 : ∀ z, x1 z = Y (eY z))
    (p q : Fin 512) (b : Fin 8) (n₁ n₂ : Fin 2048)
    (hX : ∀ z : S1x512x512.Idx, (z 2).val = p.val → ((eX z) 0).val = b.val ∧ ((eX z) 1).val = (z 1).val ∧ ((eX z) 2).val = n₁.val)
    (hY : ∀ z : S1x512x512.Idx, (z 2).val = q.val → ((eY z) 0).val = b.val ∧ ((eY z) 1).val = (z 1).val ∧ ((eY z) 2).val = n₂.val) :
    blockInner x0 x1 p q = Affinity.inner X Y b n₁ n₂ := by
  unfold blockInner Affinity.inner
  refine Finset.sum_congr rfl fun k _ => ?_
  rw [hx0, hx1]
  have e1 : eX (ix3 (0 : Fin 1) k p) = ix3 b k n₁ := funext fun a => Fin.ext (by
    obtain ⟨h0, h1, h2⟩ := hX (ix3 (0 : Fin 1) k p) rfl
    match a with
    | ⟨0, _⟩ => exact h0
    | ⟨1, _⟩ => exact h1
    | ⟨2, _⟩ => exact h2)
  have e2 : eY (ix3 (0 : Fin 1) k q) = ix3 b k n₂ := funext fun a => Fin.ext (by
    obtain ⟨h0, h1, h2⟩ := hY (ix3 (0 : Fin 1) k q) rfl
    match a with
    | ⟨0, _⟩ => exact h0
    | ⟨1, _⟩ => exact h1
    | ⟨2, _⟩ => exact h2)
  rw [e1, e2]

/-- The Gaussian block at block index `y` is the Gaussian affinity of the arrays at the array index `i` under it. -/
theorem gaussBlock_eq (x0 x1 : Vec Ideal S1x512x512 .f32) (X Y : SArg.Idx → EReal) (eX eY : S1x512x512.Idx → SArg.Idx)
    (hx0 : ∀ z, x0 z = X (eX z)) (hx1 : ∀ z, x1 z = Y (eY z)) (y : S1x512x512.Idx) (i : SRes.Idx)
    (hX : ∀ z : S1x512x512.Idx, (z 2).val = (y 1).val → ((eX z) 0).val = (i 0).val ∧ ((eX z) 1).val = (z 1).val ∧ ((eX z) 2).val = (i 1).val)
    (hY : ∀ z : S1x512x512.Idx, (z 2).val = (y 2).val → ((eY z) 0).val = (i 0).val ∧ ((eY z) 1).val = (z 1).val ∧ ((eY z) 2).val = (i 2).val) :
    E4 (F := Ideal) x0 x1 y = affinity X Y i := by
  obtain ⟨u, p, q, rfl⟩ : ∃ (u : Fin 1) (p q : Fin 512), y = ix3 u p q := ⟨y 0, y 1, y 2, eq_ix3 y⟩
  obtain ⟨b, n₁, n₂, rfl⟩ : ∃ (b : Fin 8) (n₁ n₂ : Fin 2048), i = ix3 b n₁ n₂ := ⟨i 0, i 1, i 2, eq_ix3 i⟩
  rw [gaussBlock_apply]
  unfold blockDist
  rw [blockInner_eq x0 x0 X X eX eX hx0 hx0 p p b n₁ n₁ hX hX, blockInner_eq x1 x1 Y Y eY eY hx1 hx1 q q b n₂ n₂ hY hY,
    blockInner_eq x0 x1 X Y eX eY hx0 hx1 p q b n₁ n₂ hX hY]
  rfl

/-- The bilinear block at block index `y` is the bilinear map of the arrays at the array index `i` under it. -/
theorem bilinearBlock_eq (x0 x1 : Vec Ideal S1x512x512 .f32) (X Y : SArg.Idx → EReal) (eX eY : S1x512x512.Idx → SArg.Idx)
    (hx0 : ∀ z, x0 z = X (eX z)) (hx1 : ∀ z, x1 z = Y (eY z)) (y : S1x512x512.Idx) (i : SRes.Idx)
    (hX : ∀ z : S1x512x512.Idx, (z 2).val = (y 1).val → ((eX z) 0).val = (i 0).val ∧ ((eX z) 1).val = (z 1).val ∧ ((eX z) 2).val = (i 1).val)
    (hY : ∀ z : S1x512x512.Idx, (z 2).val = (y 2).val → ((eY z) 0).val = (i 0).val ∧ ((eY z) 1).val = (z 1).val ∧ ((eY z) 2).val = (i 2).val) :
    E5 (F := Ideal) x0 x1 y = bilinear X Y i := by
  obtain ⟨u, p, q, rfl⟩ : ∃ (u : Fin 1) (p q : Fin 512), y = ix3 u p q := ⟨y 0, y 1, y 2, eq_ix3 y⟩
  obtain ⟨b, n₁, n₂, rfl⟩ : ∃ (b : Fin 8) (n₁ n₂ : Fin 2048), i = ix3 b n₁ n₂ := ⟨i 0, i 1, i 2, eq_ix3 i⟩
  rw [bilinearBlock_apply, blockInner_eq x0 x1 X Y eX eY hx0 hx1 p q b n₁ n₂ hX hY]
  rfl

/-! ## The index maps over the grid -/

/-- Each operand's tile moves with the result's: the batch with the batch, the feature tile always the first (and only)
    one, the point tile with the result's row tile (first operands) or column tile (second operands). Decided over the
    128 grid points. -/
theorem idx_facts : ∀ t : Fin cfg0.N,
    win0_0.index t (0 : Fin 3) = win0_4.index t (0 : Fin 3) ∧ win0_0.index t (1 : Fin 3) = 0 ∧ win0_0.index t (2 : Fin 3) = win0_4.index t (1 : Fin 3)
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 3) = win0_5.index t (0 : Fin 3) ∧ win0_2.index t (1 : Fin 3) = 0 ∧ win0_2.index t (2 : Fin 3) = win0_5.index t (1 : Fin 3)
    ∧ win0_3.index t (0 : Fin 3) = win0_5.index t (0 : Fin 3) ∧ win0_3.index t (1 : Fin 3) = 0 ∧ win0_3.index t (2 : Fin 3) = win0_5.index t (2 : Fin 3) :=
  (by decide +kernel : ∀ t : Fin grid0.N, _)

/-- Every tile of the first result is some grid point's. -/
theorem idx_onto4 : ∀ (q0 : Fin 8) (q1 : Fin 4) (q2 : Fin 4), ∃ t : Fin cfg0.N, win0_4.index t = ![q0.val, q1.val, q2.val] :=
  (by decide +kernel : ∀ (q0 : Fin 8) (q1 : Fin 4) (q2 : Fin 4), ∃ t : Fin grid0.N, win0_4.index t = ![q0.val, q1.val, q2.val])

/-- Every tile of the second result is some grid point's. -/
theorem idx_onto5 : ∀ (q0 : Fin 8) (q1 : Fin 4) (q2 : Fin 4), ∃ t : Fin cfg0.N, win0_5.index t = ![q0.val, q1.val, q2.val] :=
  (by decide +kernel : ∀ (q0 : Fin 8) (q1 : Fin 4) (q2 : Fin 4), ∃ t : Fin grid0.N, win0_5.index t = ![q0.val, q1.val, q2.val])

/-! ## What a grid point writes back -/

/-- What point `t` writes back to the first result is tile `t` of the Gaussian affinity of the argument arrays. -/
theorem flushed4_eq (c : Dev nD) (t : Fin cfg0.N) :
    (dats m 0 c).flushed 4 t
      = ((cfg0.win 4).blk t).view.read (Elt Ideal) (affinity (m ((c : Thread nD τ).loc main_arg0)) (m ((c : Thread nD τ).loc main_arg1))) := by
  rw [flushed4]
  unfold out0_4
  simp only [View.ld_unit_zero (S := S1x512x512) hz]
  obtain ⟨a0, a1, a2, b0, b1, b2, -, -, -, -, -, -⟩ := idx_facts t
  funext j
  refine (canon4_eq (iblk m c 0 t) (iblk m c 1 t) j).trans ?_
  refine gaussBlock_eq (iblk m c 0 t) (iblk m c 1 t) (m ((c : Thread nD τ).loc main_arg0)) (m ((c : Thread nD τ).loc main_arg1))
    (fun z => ((cfg0.win 0).blk t).view.emb z) (fun z => ((cfg0.win 1).blk t).view.emb z) (fun _ => rfl) (fun _ => rfl)
    j (((cfg0.win 4).blk t).view.emb j) ?_ ?_
  · intro z hz2
    have hz0 : (z 0).val < 1 := (z 0).isLt
    have hj0 : (j 0).val < 1 := (j 0).isLt
    refine ⟨?_, ?_, ?_⟩
    · show win0_0.index t (0 : Fin 3) * 1 + 1 * (z 0).val = win0_4.index t (0 : Fin 3) * 1 + 1 * (j 0).val
      omega
    · show win0_0.index t (1 : Fin 3) * 512 + 1 * (z 1).val = (z 1).val
      omega
    · show win0_0.index t (2 : Fin 3) * 512 + 1 * (z 2).val = win0_4.index t (1 : Fin 3) * 512 + 1 * (j 1).val
      have : (z 2).val = (j 1).val := hz2
      omega
  · intro z hz2
    have hz0 : (z 0).val < 1 := (z 0).isLt
    have hj0 : (j 0).val < 1 := (j 0).isLt
    refine ⟨?_, ?_, ?_⟩
    · show win0_1.index t (0 : Fin 3) * 1 + 1 * (z 0).val = win0_4.index t (0 : Fin 3) * 1 + 1 * (j 0).val
      omega
    · show win0_1.index t (1 : Fin 3) * 512 + 1 * (z 1).val = (z 1).val
      omega
    · show win0_1.index t (2 : Fin 3) * 512 + 1 * (z 2).val = win0_4.index t (2 : Fin 3) * 512 + 1 * (j 2).val
      have : (z 2).val = (j 2).val := hz2
      omega

/-- What point `t` writes back to the second result is tile `t` of the bilinear map of the argument arrays. -/
theorem flushed5_eq (c : Dev nD) (t : Fin cfg0.N) :
    (dats m 0 c).flushed 5 t
      = ((cfg0.win 5).blk t).view.read (Elt Ideal) (bilinear (m ((c : Thread nD τ).loc main_arg2)) (m ((c : Thread nD τ).loc main_arg3))) := by
  rw [flushed5]
  unfold out0_5
  simp only [View.ld_unit_zero (S := S1x512x512) hz]
  obtain ⟨-, -, -, -, -, -, a0, a1, a2, b0, b1, b2⟩ := idx_facts t
  funext j
  refine (canon5_eq (iblk m c 2 t) (iblk m c 3 t) j).trans ?_
  refine bilinearBlock_eq (iblk m c 2 t) (iblk m c 3 t) (m ((c : Thread nD τ).loc main_arg2)) (m ((c : Thread nD τ).loc main_arg3))
    (fun z => ((cfg0.win 2).blk t).view.emb z) (fun z => ((cfg0.win 3).blk t).view.emb z) (fun _ => rfl) (fun _ => rfl)
    j (((cfg0.win 5).blk t).view.emb j) ?_ ?_
  · intro z hz2
    have hz0 : (z 0).val < 1 := (z 0).isLt
    have hj0 : (j 0).val < 1 := (j 0).isLt
    refine ⟨?_, ?_, ?_⟩
    · show win0_2.index t (0 : Fin 3) * 1 + 1 * (z 0).val = win0_5.index t (0 : Fin 3) * 1 + 1 * (j 0).val
      omega
    · show win0_2.index t (1 : Fin 3) * 512 + 1 * (z 1).val = (z 1).val
      omega
    · show win0_2.index t (2 : Fin 3) * 512 + 1 * (z 2).val = win0_5.index t (1 : Fin 3) * 512 + 1 * (j 1).val
      have : (z 2).val = (j 1).val := hz2
      omega
  · intro z hz2
    have hz0 : (z 0).val < 1 := (z 0).isLt
    have hj0 : (j 0).val < 1 := (j 0).isLt
    refine ⟨?_, ?_, ?_⟩
    · show win0_3.index t (0 : Fin 3) * 1 + 1 * (z 0).val = win0_5.index t (0 : Fin 3) * 1 + 1 * (j 0).val
      omega
    · show win0_3.index t (1 : Fin 3) * 512 + 1 * (z 1).val = (z 1).val
      omega
    · show win0_3.index t (2 : Fin 3) * 512 + 1 * (z 2).val = win0_5.index t (2 : Fin 3) * 512 + 1 * (j 2).val
      have : (z 2).val = (j 2).val := hz2
      omega

/-! ## The tiles cover the result arrays -/

/-- An index of the first result is in point `t`'s tile iff each coordinate is in the tile's range on its axis. -/
theorem mem_blk4 (t : Fin cfg0.N) (i : S8x2048x2048.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v0_0).slice (win0_4.rect t)).set ↔ _
  rw [View.set_slice_whole, Rect.mem_set_unit]
  exact Iff.rfl

theorem mem_blk5 (t : Fin cfg0.N) (i : S8x2048x2048.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v0_1).slice (win0_5.rect t)).set ↔ _
  rw [View.set_slice_whole, Rect.mem_set_unit]
  exact Iff.rfl

/-- Every index `(b, n, m)` of the first result is in the tile `(b, n / 512, m / 512)`. -/
theorem cover4 (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := idx_onto4 ⟨(i 0).val, by omega⟩ ⟨(i 1).val / 512, by omega⟩ ⟨(i 2).val / 512, by omega⟩
  have q0 : win0_4.index t (0 : Fin 3) = (i 0).val := congrFun ht 0
  have q1 : win0_4.index t (1 : Fin 3) = (i 1).val / 512 := congrFun ht 1
  have q2 : win0_4.index t (2 : Fin 3) = (i 2).val / 512 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- Every index of the second result is in the tile `(b, n / 512, m / 512)`. -/
theorem cover5 (i : S8x2048x2048.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto5 ⟨(i 0).val, by omega⟩ ⟨(i 1).val / 512, by omega⟩ ⟨(i 2).val / 512, by omega⟩
  have q0 : win0_5.index t (0 : Fin 3) = (i 0).val := congrFun ht 0
  have q1 : win0_5.index t (1 : Fin 3) = (i 1).val / 512 := congrFun ht 1
  have q2 : win0_5.index t (2 : Fin 3) = (i 2).val / 512 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-! ## The result arrays after the run -/

/-- The first result array ends holding the Gaussian affinity of the argument arrays. -/
theorem final4 (c : Dev nD) :
    (dats m 0 c).arrAt 4 cfg0.N = affinity (m ((c : Thread nD τ).loc main_arg0)) (m ((c : Thread nD τ).loc main_arg1)) :=
  (dats m 0 c).arrAt_eq_of_cover 4 _ (fun t _ => flushed4_eq m c t) cover4

/-- The second result array ends holding the bilinear map of the argument arrays. -/
theorem final5 (c : Dev nD) :
    (dats m 0 c).arrAt 5 cfg0.N = bilinear (m ((c : Thread nD τ).loc main_arg2)) (m ((c : Thread nD τ).loc main_arg3)) :=
  (dats m 0 c).arrAt_eq_of_cover 5 _ (fun t _ => flushed5_eq m c t) cover5

/-- The kernel's run, read: each result array at its function of the arguments, the arguments unchanged. -/
theorem run : θ_run defs (onTc (τ := τ) (main (F := Ideal))) ⟨m, fun _ => 0, ρ⟩ fun r => ∀ c : Dev nD,
      r.2.mem ((c : Thread nD τ).loc main_v0_0) = affinity (m ((c : Thread nD τ).loc main_arg0)) (m ((c : Thread nD τ).loc main_arg1))
      ∧ r.2.mem ((c : Thread nD τ).loc main_v0_1) = bilinear (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Blocks

end
-- ==== Proof.lean ====
/-
  The kernel computes, tile by tile, the Gaussian affinity of every pair of points of `X` and `Y` and the bilinear map of
  `Ux` and `Uy`; the reference computes the same two arrays whole. Over the extended reals both are

    Me[b, n, m] = exp(−(Σ_d X[b,d,n]² + Σ_d Y[b,d,m]² − 2·Σ_d X[b,d,n]·Y[b,d,m]) / 1) · 1,
    Mp[b, n, m] = (Σ_d Ux[b,d,n]·Uy[b,d,m]) · 1

  (Proof/Spec.lean). The kernel's matrix products contract the feature axis of both tiles and its change to a narrower float
  format is the identity at the ideal values, so a tile of each result is the tile of these functions (Proof/Payload.lean,
  Proof/Blocks.lean); the reference's batched contractions and sums read the same (Proof/RefValue.lean). The only laws used
  are that an extended real never differs from itself (the NaN mask is the identity), that `0 − d = −d`, and that the
  zero a sum starts from is the real 0; no distributivity or cancellation, so the finiteness of the inputs is not needed.
  The idealization rewrote nothing, so the preservation claim is trivial; the frames are the generated ones, and the
  reference's is its run with the results dropped.
-/
import proofs.«102930_j59253368816316_1_alg».proof.Defs
import proofs.«102930_j59253368816316_1_alg».proof.Proof.Gen.Kernel
import proofs.«102930_j59253368816316_1_alg».proof.Proof.Gen.Kernel.Skeleton
import proofs.«102930_j59253368816316_1_alg».proof.Proof.Gen.Kernel.Launch
import proofs.«102930_j59253368816316_1_alg».proof.Proof.Gen.Kernel.Points
import proofs.«102930_j59253368816316_1_alg».proof.Proof.Gen.Kernel.Frame
import proofs.«102930_j59253368816316_1_alg».proof.Proof.Gen.KernelIdeal
import proofs.«102930_j59253368816316_1_alg».proof.Proof.Gen.KernelIdeal.Skeleton
import proofs.«102930_j59253368816316_1_alg».proof.Proof.Gen.KernelIdeal.Launch
import proofs.«102930_j59253368816316_1_alg».proof.Proof.Gen.KernelIdeal.Points
import proofs.«102930_j59253368816316_1_alg».proof.Proof.Gen.KernelIdeal.Frame
import proofs.«102930_j59253368816316_1_alg».proof.Proof.Gen.ReferenceIdeal
import proofs.«102930_j59253368816316_1_alg».proof.Proof.Gen.Pre_finite_inputs
import proofs.«102930_j59253368816316_1_alg».proof.Proof.Gen.KernelIdeal.Value
import proofs.«102930_j59253368816316_1_alg».proof.Proof.Gen.ReferenceIdeal.Run
import proofs.«102930_j59253368816316_1_alg».proof.Proof.Gen.ReferenceIdeal.Read
import proofs.«102930_j59253368816316_1_alg».proof.Proof.Spec
import proofs.«102930_j59253368816316_1_alg».proof.Proof.RefValue
import proofs.«102930_j59253368816316_1_alg».proof.Proof.Blocks
import Idealize.ShloMosaic.Adequacy
import Idealize.ShloMosaic.Init

noncomputable section

namespace Cert.Proof

open Idealize.ShloMosaic Idealize.ShloMosaic.TcCoe Idealize.SL.Sem
open Cert.Affinity

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's are the Gaussian affinity and the bilinear
    map of the same arrays. -/
theorem algebraic : Cert.algebraic_KernelIdeal_ReferenceIdeal := by
  intro m ρ m' ρ' _ hagree
  refine ⟨fun c => affinity (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => bilinear (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ?_) (Cert.ReferenceIdeal.Value.run (F := Ideal) m' ρ')
  obtain ⟨h0, h1, h2⟩ := h c
  obtain ⟨e0, e1, e2, e3⟩ := hagree c
  refine ⟨h0.trans ?_, h1.trans ?_, h2⟩
  · rw [Cert.ReferenceIdeal.Read.val_main_v20_eq, Cert.ReferenceIdeal.RefValue.affinity_eq, e0, e1]
  · rw [Cert.ReferenceIdeal.Read.val_main_v23_eq, Cert.ReferenceIdeal.RefValue.bilinear_eq, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
